-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x11008 : Shape := ⟨2, ![4096, 11008]⟩
abbrev S4096x1 : Shape := ⟨2, ![4096, 1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel

variable [Facts]

def fn {F : FTy → Type} [FloatOps F] (main_arg0 : IVec S4096x11008 32) (main_arg1 : FVec F S4096x1 .f32) (main_arg2 : FVec F S4096x1 .f32) : IVec S_ 1 :=
  let main_v0 : FVec F S4096x1 .f32 := Host.absf main_arg1
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  main_v8
-- ==== Kernel.lean ====
abbrev S4096x11008 : Shape := ⟨2, ![4096, 11008]⟩
abbrev S4096x1 : Shape := ⟨2, ![4096, 1]⟩
abbrev S256x5504 : Shape := ⟨2, ![256, 5504]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x11008, .i32⟩
  | .hbm, ⟨1, _⟩ => ⟨S4096x1, .f32⟩
  | .hbm, ⟨2, _⟩ => ⟨S4096x1, .f32⟩
  | .hbm, ⟨3, _⟩ => ⟨S4096x11008, .f32⟩
  | .local _ .vmem, ⟨0, _⟩ => ⟨S256x5504, .i32⟩
  | .local _ .vmem, ⟨1, _⟩ => ⟨S256x5504, .i32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x5504, .f32⟩
  | .local _ .vmem, ⟨7, _⟩ => ⟨S256x5504, .f32⟩
  | _, _ => ⟨S4096x11008, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x5504 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x5504_S256x5504_0_0 : ∀ a, (![0, 0] : Fin 2 → Nat) a + S256x5504.size a ≤ S256x5504.size a
  h_S256x5504 : 0 < S256x5504.numel
  inb_S256x1_S256x1_0_0 : ∀ a, (![0, 0] : Fin 2 → Nat) a + S256x1.size a ≤ S256x1.size a
  h_S256x1 : 0 < S256x1.numel
  broadcasts_S256x1_S256x5504 : S256x1.Broadcasts S256x5504
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5504.size a ≤ S4096x11008.size a
  hwx0_0 : ∀ i : grid0.Coords, EltTy.bits .i32 = 32 ∨ (Rect.block (s := S4096x11008) S256x5504.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x5504.size a ≤ S4096x11008.size a
  hwx0_3 : ∀ i : grid0.Coords, EltTy.bits .f32 = 32 ∨ (Rect.block (s := S4096x11008) S256x5504.size (cc0_transform_3 i) (hinb0_3 i)).WholeWords (EltTy.packing .f32)

variable [Facts₀]

abbrev win0_0 : Pipeline.Window sig grid0 :=
  Pipeline.Window.ofSpec (Memref.whole main_arg0) S256x5504.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x5504.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x11008 : Shape := ⟨2, ![4096, 11008]⟩
abbrev S4096x1 : Shape := ⟨2, ![4096, 1]⟩

abbrev nBuf : Space → Nat
  | .hbm => 8
  | .vmem => 0
  | .smem => 0
  | _ => 0

abbrev bufTy : (tb : Table) → Fin (tcTables nBuf tb) → BufTy
  | .hbm, ⟨0, _⟩ => ⟨S4096x11008, .i32⟩
  | .hbm, ⟨1, _⟩ => ⟨S4096x1, .f32⟩
  | .hbm, ⟨2, _⟩ => ⟨S4096x1, .f32⟩
  | .hbm, ⟨3, _⟩ => ⟨S4096x11008, .f32⟩
  | .hbm, ⟨4, _⟩ => ⟨S4096x11008, .f32⟩
  | .hbm, ⟨5, _⟩ => ⟨S4096x11008, .f32⟩
  | .hbm, ⟨6, _⟩ => ⟨S4096x11008, .f32⟩
  | .hbm, ⟨7, _⟩ => ⟨S4096x11008, .f32⟩
  | _, _ => ⟨S4096x11008, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096x1_S4096x11008_0_1 : S4096x1.BroadcastsInDim S4096x11008 (![0, 1] : Fin 2 → Fin S4096x11008.rank)

variable [Facts₀]

class Facts : Prop extends Facts₀ where

variable [Facts]
-- ==== Proof.DequantSpec.lean ====
/-
  The function both programs compute: asymmetric dequantization of an integer weight matrix, row by row.

  For a weight matrix `w` of 4096 rows and 11008 columns of 32-bit integers, and two columns `scale` and
  `zero` of 4096 floats (one entry per row), the result at row `r`, column `k` is

      (float (w r k) − zero r) · scale r.

  Nothing here depends on the float instance: the integer-to-float conversion, the subtraction and the
  product are the instance's own scalar operations, applied once per entry, in this order. The two
  programs apply exactly these operations in exactly this order (the kernel tile by tile, the reference to
  the whole matrix at once), so no algebraic law and no finiteness of the inputs is needed to compare them:
  only that every entry reads the same three input entries on both sides.
-/
import Idealize.ShloMosaic.PureOps
import Idealize.ShloMosaic.Lib.ValueIdx

noncomputable section

namespace Cert.Dequant

open Idealize.ShloMosaic Idealize.ShloMosaic.ValueIdx

/-- The weight matrix's shape: 4096 rows of 11008 entries. -/
abbrev Wt : Shape := ⟨2, ![4096, 11008]⟩
/-- The shape of a per-row column: 4096 rows of one entry. -/
abbrev Col : Shape := ⟨2, ![4096, 1]⟩

/-- The entry of a per-row column that belongs to a matrix entry: the same row, the column's only position. -/
abbrev rowOf (i : Wt.Idx) : Col.Idx := ix2 (i 0) (0 : Fin 1)

variable {F : FTy → Type} [FloatOps F]

/-- The dequantized matrix, entry by entry: `(float (w i) − zero (row of i)) · scale (row of i)`. -/
def deq (w : Vec F Wt .i32) (scale zero : Vec F Col .f32) : Vec F Wt .f32 :=
  fun i => FloatOps.mulf (FloatOps.subf (FloatOps.sitofp .f32 (w i)) (zero (rowOf i))) (scale (rowOf i))

theorem deq_apply (w : Vec F Wt .i32) (scale zero : Vec F Col .f32) (i : Wt.Idx) :
    deq w scale zero i
      = FloatOps.mulf (FloatOps.subf (FloatOps.sitofp .f32 (w i)) (zero (rowOf i))) (scale (rowOf i)) := rfl

end Cert.Dequant

end
-- ==== Proof.DequantKernel.lean ====
/-
  The kernel leaves the dequantized matrix `Cert.Dequant.deq` in its output array.

  The kernel walks a grid of 16 × 2 points. At point `(a, b)` it works on the tile of 256 rows and 5504 columns whose
  first row is `256·a` and first column `5504·b`: it reads that tile of the weights and the 256 entries of the scale and
  zero-point columns for rows `256·a … 256·a + 255`, and stores, at row `p` and column `q` of the tile,
  `(float (w tile p q) − zero p) · scale p`. Row `p` of the tile is row `256·a + p` of the matrix and its column `q` is column
  `5504·b + q`, and the column entries it reads are those of row `256·a + p`: so what the point writes back is exactly
  the tile of `deq` it sits on. The 32 tiles cover the matrix (row `r` lies in tile row `r / 256`, column `k` in tile
  column `k / 5504`), so after the run the whole output array is `deq` of the three inputs.
-/
import proofs.«144025_j29274497089862_1_alg».proof.Proof.KernelIdealValue
import proofs.«144025_j29274497089862_1_alg».proof.Proof.DequantSpec

noncomputable section

namespace Cert.Dequant.Kernel

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable {F : FTy → Type} [FloatOps F]
variable (m : (ℓ : Loc nD τ sig) → Buf (Elt F) ℓ) (ρ : Dev nD → PrngReg)

/-- The offset of a whole-tile access, spelt as the constant zero function. -/
theorem zeros : (![0, 0] : Fin 2 → Nat) = fun _ => 0 := funext fun a => by fin_cases a <;> rfl

/-- WHAT THE BODY LEAVES IN A TILE, entry by entry, from the three tiles it loads (weights `x0`, scale `x1`, zero point
    `x2`): at row `p`, column `q` it is `(float (x0 p q) − x2 p) · x1 p`. -/
theorem tile_apply (x0 : Vec F S256x5504 .i32) (x1 x2 : Vec F S256x1 .f32) (y : S256x5504.Idx) :
    out0_3 x0 x1 x2 y
      = FloatOps.mulf (FloatOps.subf (FloatOps.sitofp .f32 (x0 y)) (x2 (ix2 (y 0) (0 : Fin 1)))) (x1 (ix2 (y 0) (0 : Fin 1))) := by
  unfold out0_3
  rw [Cert.KernelIdeal.ValueP.canon3_eq]
  simp only [View.ld_unit_zero (S := S256x5504) zeros, View.ld_unit_zero (S := S256x1) zeros]
  have e0 : Cert.KernelIdeal.ValueP.ix3_0 y = y := funext fun a => match a with | ⟨0, _⟩ => rfl | ⟨1, _⟩ => rfl
  have e1 : Cert.KernelIdeal.ValueP.ix3_1 y = ix2 (y 0) (0 : Fin 1) := funext fun a => match a with | ⟨0, _⟩ => rfl | ⟨1, _⟩ => rfl
  have e2 : Cert.KernelIdeal.ValueP.ix3_2 y = ix2 (y 0) (0 : Fin 1) := funext fun a => match a with | ⟨0, _⟩ => rfl | ⟨1, _⟩ => rfl
  show FloatOps.mulf (FloatOps.subf (FloatOps.sitofp .f32 (x0 (Cert.KernelIdeal.ValueP.ix3_0 y))) (x2 (Cert.KernelIdeal.ValueP.ix3_1 y))) (x1 (Cert.KernelIdeal.ValueP.ix3_2 y)) = _
  rw [e0, e1, e2]
  rfl

/-- The tile indices over the 32 grid points, decided: the weight tile moves with the output tile on both axes; the two
    column tiles follow the output's tile row and stay at tile column 0; the output's tile row is at most 15 and its tile
    column at most 1. -/
theorem tile_indices : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (0 : Fin 2) ≤ 15
    ∧ win0_3.index t (1 : Fin 2) ≤ 1 :=
  (by decide +kernel : ∀ t : Fin grid0.N, _)

/-- Every one of the 16 × 2 tiles is some grid point's. -/
theorem tile_onto : ∀ (a : Fin 16) (b : Fin 2), ∃ t : Fin cfg0.N, win0_3.index t = ![a.val, b.val] :=
  (by decide +kernel : ∀ (a : Fin 16) (b : Fin 2), ∃ t : Fin grid0.N, win0_3.index t = ![a.val, b.val])

/-- WHAT POINT `t` WRITES BACK is the tile of `deq` (of the three arrays as the region finds them) that the point sits on. -/
theorem flushed_eq (c : Dev nD) (t : Fin cfg0.N) :
    (dats m 0 c).flushed 3 t
      = ((cfg0.win 3).blk t).view.read (Elt F) (deq (V m c main_arg0) (V m c main_arg1) (V m c main_arg2)) := by
  rw [Cert.KernelIdeal.ValueP.flushed3]
  obtain ⟨e0, e1, e2, e3, e4, e5, -, -⟩ := tile_indices t
  funext j
  show out0_3 (iblk m c 0 t) (iblk m c 1 t) (iblk m c 2 t) j
    = deq (V m c main_arg0) (V m c main_arg1) (V m c main_arg2) (((cfg0.win 3).blk t).view.emb j)
  refine (tile_apply (F := F) (iblk m c 0 t) (iblk m c 1 t) (iblk m c 2 t) j).trans ?_
  rw [deq_apply]
  show FloatOps.mulf (FloatOps.subf (FloatOps.sitofp .f32 (V m c main_arg0 (((cfg0.win 0).blk t).view.emb j)))
        (V m c main_arg2 (((cfg0.win 2).blk t).view.emb (ix2 (j 0) (0 : Fin 1)))))
        (V m c main_arg1 (((cfg0.win 1).blk t).view.emb (ix2 (j 0) (0 : Fin 1))))
    = FloatOps.mulf (FloatOps.subf (FloatOps.sitofp .f32 (V m c main_arg0 (((cfg0.win 3).blk t).view.emb j)))
        (V m c main_arg2 (rowOf (((cfg0.win 3).blk t).view.emb j))))
        (V m c main_arg1 (rowOf (((cfg0.win 3).blk t).view.emb j)))
  have hj0 : (j 0).val < 256 := (j 0).isLt
  have hj1 : (j 1).val < 5504 := (j 1).isLt
  -- the weight tile's entry is the output tile's entry
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 5504 + 1 * (j 1).val = win0_3.index t (1 : Fin 2) * 5504 + 1 * (j 1).val; omega
  -- the zero-point tile's entry for tile row `j 0` is the column entry of the matrix row under it
  have h2 : ((cfg0.win 2).blk t).view.emb (ix2 (j 0) (0 : Fin 1)) = rowOf (((cfg0.win 3).blk t).view.emb j) := by
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 1 + 1 * 0 = 0; omega
  -- and the same for the scale tile
  have h1 : ((cfg0.win 1).blk t).view.emb (ix2 (j 0) (0 : Fin 1)) = rowOf (((cfg0.win 3).blk t).view.emb j) := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 1 + 1 * 0 = 0; omega
  rw [h0, h2, h1]

/-- A matrix entry lies in point `t`'s output tile iff each coordinate lies in the tile's range on its axis. -/
theorem mem_tile (t : Fin cfg0.N) (i : S4096x11008.Idx) :
    i ∈ ((cfg0.win 3).blk t).view.set
      ↔ ∀ a : Fin 2, win0_3.index t a * S256x5504.size a ≤ (i a).val ∧ (i a).val < win0_3.index t a * S256x5504.size a + S256x5504.size a := by
  show i ∈ ((View.whole main_v0).slice (win0_3.rect t)).set ↔ _
  rw [View.set_slice_whole, Rect.mem_set_unit]
  exact Iff.rfl

/-- THE TILES COVER THE MATRIX: entry `(r, k)` lies in the tile at tile row `r / 256`, tile column `k / 5504`. -/
theorem covered (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  obtain ⟨t, ht⟩ := tile_onto ⟨(i 0).val / 256, by omega⟩ ⟨(i 1).val / 5504, by omega⟩
  have q0 : win0_3.index t (0 : Fin 2) = (i 0).val / 256 := congrFun ht 0
  have q1 : win0_3.index t (1 : Fin 2) = (i 1).val / 5504 := congrFun ht 1
  refine ⟨t, flush0_3 t, ?_⟩
  rw [mem_tile]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 5504 ≤ (i 1).val ∧ (i 1).val < win0_3.index t (1 : Fin 2) * 5504 + 5504; omega

/-- THE OUTPUT ARRAY AFTER THE RUN is `deq` of the three argument arrays as launched. -/
theorem final (c : Dev nD) :
    (dats m 0 c).arrAt 3 cfg0.N
      = deq (m ((c : Thread nD τ).loc main_arg0)) (m ((c : Thread nD τ).loc main_arg1)) (m ((c : Thread nD τ).loc main_arg2)) :=
  (dats m 0 c).arrAt_eq_of_cover 3 (deq (V m c main_arg0) (V m c main_arg1) (V m c main_arg2))
    (fun t _ => flushed_eq m c t) covered

/-- The kernel's run: every weakly fair execution ends with the result array at `deq` of the arguments and the arguments
    unchanged. -/
theorem run : θ_run defs (onTc (τ := τ) (main (F := F))) ⟨m, fun _ => 0, ρ⟩ fun r => ∀ c : Dev nD,
      r.2.mem ((c : Thread nD τ).loc main_v0)
        = deq (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.ValueP.run_blocks m ρ)

end Cert.Dequant.Kernel

end
-- ==== Proof.DequantReference.lean ====
/-
  The reference computes the dequantized matrix `Cert.Dequant.deq`.

  The reference converts the whole integer matrix to floats, broadcasts the zero-point column along the rows'
  11008 positions, subtracts, broadcasts the scale column the same way and multiplies. Read at one entry
  `(r, k)`, a column broadcast along a row reads the column at `(r, 0)`; so the entry is
  `(float (w r k) − zero r) · scale r`, which is `deq` at that entry.
-/
import proofs.«144025_j29274497089862_1_alg».proof.Proof.Gen.ReferenceIdeal.Read
import proofs.«144025_j29274497089862_1_alg».proof.Proof.DequantSpec

noncomputable section

namespace Cert.Dequant.Reference

open Idealize.ShloMosaic Idealize.ShloMosaic.ValueIdx Cert.ReferenceIdeal Cert.ReferenceIdeal.Read Cert.Dequant

variable {F : FTy → Type} [FloatOps F]

/-- Where the broadcast zero-point column is read for a matrix entry: the entry's row, position 0. -/
theorem zero_row (i : Wt.Idx) : idx_main_v1 i = rowOf i :=
  funext fun a => match a with | ⟨0, _⟩ => rfl | ⟨1, _⟩ => rfl

/-- Where the broadcast scale column is read for a matrix entry: the entry's row, position 0. -/
theorem scale_row (i : Wt.Idx) : idx_main_v3 i = rowOf i :=
  funext fun a => match a with | ⟨0, _⟩ => rfl | ⟨1, _⟩ => rfl

/-- The reference's last stage is `deq` of the three arguments (weights, scale, zero point). -/
theorem stage_eq_deq (w : Vec F Wt .i32) (scale zero : Vec F Col .f32) :
    val_main_v4 (F := F) w scale zero = deq w scale zero := by
  funext i
  rw [val_main_v4_apply, val_main_v2_apply, val_main_v0_apply, val_main_v1_apply, val_main_v3_apply,
    zero_row, scale_row, deq_apply]

end Cert.Dequant.Reference

end
-- ==== Proof.lean ====
/-
  Asymmetric dequantization of a 4096 × 11008 matrix of 32-bit integer weights by a per-row scale and zero point:
  the kernel against its jnp reference, over the extended reals.

  Both programs compute, at row `r` and column `k`,

      (float (w r k) − zero r) · scale r

  (`Cert.Dequant.deq`, Proof/DequantSpec.lean), with the same three scalar operations in the same order: the kernel on
  tiles of 256 rows by 5504 columns over a grid of 16 × 2 points, each tile reading its own rows of the two columns
  (Proof/DequantKernel.lean: what a point writes back is its tile of `deq`, and the 32 tiles cover the matrix), the
  reference on the whole matrix with the columns broadcast along the rows (Proof/DequantReference.lean). No algebraic
  law separates the two sides, so the finiteness of the float inputs is never used; the integer-to-float conversion is
  the same operation of the same integer on both sides.

  The three frames are the programs' runs with the result dropped; the idealization rewrote nothing, so `preserves` is
  `True`; `algebraic` sets the kernel's run beside the reference's run at the one function `deq` of the agreeing arguments.
-/
import proofs.«144025_j29274497089862_1_alg».proof.Defs
import proofs.«144025_j29274497089862_1_alg».proof.Proof.Gen.Kernel
import proofs.«144025_j29274497089862_1_alg».proof.Proof.Gen.Kernel.Skeleton
import proofs.«144025_j29274497089862_1_alg».proof.Proof.Gen.Kernel.Launch
import proofs.«144025_j29274497089862_1_alg».proof.Proof.Gen.Kernel.Points
import proofs.«144025_j29274497089862_1_alg».proof.Proof.Gen.Kernel.Frame
import proofs.«144025_j29274497089862_1_alg».proof.Proof.Gen.KernelIdeal
import proofs.«144025_j29274497089862_1_alg».proof.Proof.Gen.KernelIdeal.Skeleton
import proofs.«144025_j29274497089862_1_alg».proof.Proof.Gen.KernelIdeal.Launch
import proofs.«144025_j29274497089862_1_alg».proof.Proof.Gen.KernelIdeal.Points
import proofs.«144025_j29274497089862_1_alg».proof.Proof.Gen.KernelIdeal.Frame
import proofs.«144025_j29274497089862_1_alg».proof.Proof.Gen.ReferenceIdeal
import proofs.«144025_j29274497089862_1_alg».proof.Proof.Gen.Pre_finite_inputs
import proofs.«144025_j29274497089862_1_alg».proof.Proof.Gen.ReferenceIdeal.Run
import proofs.«144025_j29274497089862_1_alg».proof.Proof.Gen.ReferenceIdeal.Read
import proofs.«144025_j29274497089862_1_alg».proof.Proof.DequantKernel
import proofs.«144025_j29274497089862_1_alg».proof.Proof.DequantReference
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- And the idealized reference: its run, with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the weights, the scale and the zero point, both idealized programs end with the result
    array at `deq` of those three arrays: the kernel by its tiles, the reference by its five whole-matrix operations. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.Dequant.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Dequant.Reference.stage_eq_deq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
